-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S2x5000x10000 : Shape := ⟨3, ![2, 5000, 10000]⟩
abbrev S1x128 : Shape := ⟨2, ![1, 128]⟩
abbrev S2x5000x128 : Shape := ⟨3, ![2, 5000, 128]⟩
abbrev S1x200x10000 : Shape := ⟨3, ![1, 200, 10000]⟩
abbrev S2x200x128 : Shape := ⟨3, ![2, 200, 128]⟩
abbrev S200x10000 : Shape := ⟨2, ![200, 10000]⟩
abbrev S200x128 : Shape := ⟨2, ![200, 128]⟩
abbrev S1x200x128 : Shape := ⟨3, ![1, 200, 128]⟩

abbrev nBuf : Space → Nat
  | .hbm => 8
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S2x5000x10000, .f32⟩
  | .hbm, ⟨5, _⟩ => ⟨S1x128, .f32⟩
  | .hbm, ⟨6, _⟩ => ⟨S2x5000x128, .f32⟩
  | .hbm, ⟨7, _⟩ => ⟨S10000x128, .f32⟩
  | .local _ .vmem, ⟨0, _⟩ => ⟨S1x200x10000, .f32⟩
  | .local _ .vmem, ⟨1, _⟩ => ⟨S1x200x10000, .f32⟩
  | .local _ .vmem, ⟨2, _⟩ => ⟨S1x200x10000, .f32⟩
  | .local _ .vmem, ⟨3, _⟩ => ⟨S1x200x10000, .f32⟩
  | .local _ .vmem, ⟨4, _⟩ => ⟨S10000x128, .f32⟩
  | .local _ .vmem, ⟨5, _⟩ => ⟨S128x128, .f32⟩
  | .local _ .vmem, ⟨6, _⟩ => ⟨S1x128, .f32⟩
  | .local _ .vmem, ⟨7, _⟩ => ⟨S2x200x128, .f32⟩
  | .local _ .vmem, ⟨8, _⟩ => ⟨S2x200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S10000x10000_S2x5000x10000 : S10000x10000.ShapeCasts S2x5000x10000
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x200x10000_S1x200x10000_0_0_0 : ∀ a, (![0, 0, 0] : Fin 3 → Nat) a + S1x200x10000.size a ≤ S1x200x10000.size a
  h_S1x200x10000 : 0 < S1x200x10000.numel
  shapeCasts_S1x200x10000_S200x10000 : S1x200x10000.ShapeCasts S200x10000
  broadcasts_S1x128_S200x128 : S1x128.Broadcasts S200x128
  inb_S2x200x128_S1x200x128_0_0_0 : ∀ a, (![0, 0, 0] : Fin 3 → Nat) a + S1x200x128.size a ≤ S2x200x128.size a
  h_S1x200x128 : 0 < S1x200x128.numel
  shapeCasts_S1x200x128_S200x128 : S1x200x128.ShapeCasts S200x128
  shapeCasts_S200x128_S1x200x128 : S200x128.ShapeCasts S1x200x128
  inb_S2x200x128_S1x200x128_1_0_0 : ∀ a, (![1, 0, 0] : Fin 3 → Nat) a + S1x200x128.size a ≤ S2x200x128.size a
  shapeCasts_S2x5000x128_S10000x128 : S2x5000x128.ShapeCasts S10000x128
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x200x10000.size a ≤ S2x5000x10000.size a
  hwx0_0 : ∀ i : grid0.Coords, EltTy.bits .f32 = 32 ∨ (Rect.block (s := S2x5000x10000) S1x200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x200x10000.size a ≤ S2x5000x10000.size a
  hwx0_1 : ∀ i : grid0.Coords, EltTy.bits .f32 = 32 ∨ (Rect.block (s := S2x5000x10000) S1x200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x200x128.size a ≤ S2x5000x128.size a
  hwx0_5 : ∀ i : grid0.Coords, EltTy.bits .f32 = 32 ∨ (Rect.block (s := S2x5000x128) S2x200x128.size (cc0_transform_5 i) (hinb0_5 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_v0) S1x200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2x200x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩

abbrev nBuf : Space → Nat
  | .hbm => 9
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.KData.lean ====
/-
  The proof data of the graph-convolution kernel's one pipeline, at any float instance.

  The kernel computes, for each of 25 grid points t and each half h ∈ {0, 1} of the adjacency's rows,
  the 200 × 128 block  (adj[h·5000 + 200·t ..][·] · x) · w + b  and stores it at leading index h of its
  2 × 200 × 128 output block.  The adjacency, viewed as 2 × 5000 × 10000, is handed to the kernel through
  TWO input windows (one per half), so the two windows read one array: each holds half of the array's share.
  Here: the arrays as the region finds them (after the two reshapes of @main), each window's block at a
  point, what the body leaves in the output block (the two stores, the later one first), and the proof data.
-/
import proofs.«158242_g82179904241989_cont_9to1_m_260_6_alg».proof.Proof.Gen.Kernel.Launch
import proofs.«158242_g82179904241989_cont_9to1_m_260_6_alg».proof.Proof.Gen.Kernel.Skeleton
import proofs.«158242_g82179904241989_cont_9to1_m_260_6_alg».proof.Proof.Gen.Kernel.Points
import Idealize.ShloMosaic.Lib.Pipeline.FrameBody
import Idealize.ShloMosaic.Lib.Pipeline.FrameSuffix

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output block -/

/-- The lower half of the output block (leading index 0), -/
abbrev rLo : Rect S2x200x128 := Rect.unit (s := S2x200x128) ![0, 0, 0] S1x200x128.size inb_S2x200x128_S1x200x128_0_0_0
/-- and the upper half (leading index 1). -/
abbrev rHi : Rect S2x200x128 := Rect.unit (s := S2x200x128) ![1, 0, 0] S1x200x128.size inb_S2x200x128_S1x200x128_1_0_0

/-- The output block after the body, from the input blocks: the first half's product stored at leading index 0,
    the second half's at leading index 1 (the later store listed first). -/
def out5 (xa xb : Vec F S1x200x10000 .f32) (x : Vec F S10000x128 .f32) (w : Vec F S128x128 .f32) (b : Vec F S1x128 .f32) :
    Vec F S2x200x128 .f32 :=
  View.canon [⟨rHi, k0_pay3 x w b xb⟩, ⟨rLo, k0_pay2 x w b xa⟩]

/-! ## The proof data -/

/-- The proof data on core `c`: the arrays as the region finds them; each input's staging buffer left at its block,
    the output's at `out5` of the input blocks; no invariant of the body's own; the adjacency's share dealt in halves
    to the two windows that read it, every other input held whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := (BI.emp : sProp 𝕄)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = out5 (iblk m c 0 t) (iblk m c 1 t) (iblk m c 2 t) (iblk m c 3 t) (iblk m c 4 t) := by dsimp only [dats]

/-- The output array (2 × 5000 × 128) after the last point's write-back. -/
def outArr (c : Dev nD) : Vec F S2x5000x128 .f32 := (dats m 0 c).arrAt 5 cfg0.N

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl

end Cert.Kernel.Hand

end
-- ==== Proof.KBody.lean ====
/-
  The body obligation of the graph-convolution kernel at every grid point.

  The body reads the three operands held whole (features, weights, bias), then for each half of the adjacency
  block reads that half, forms (half · features) · weights + bias, and stores it at that half's leading index of
  the output block.  The two stores tile the output block, so what the body leaves there is a closed function of
  the input blocks: the two payloads laid side by side.
-/
import proofs.«158242_g82179904241989_cont_9to1_m_260_6_alg».proof.Proof.KData
import Idealize.ShloMosaic.Lib.Ring
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two stores fill the output block -/

/-- Every index of the 2 × 200 × 128 output block has leading coordinate 0 or 1, so it lies in the lower or in the
    upper half: the two stored halves tile the block. -/
private theorem halves_cover (pHi pLo : Vec F S1x200x128 .f32) (y : S2x200x128.Idx) :
    ∃ pc ∈ ([⟨rHi, pHi⟩, ⟨rLo, pLo⟩] : List (View.Piece (Elt F) S2x200x128 .f32)), y ∈ pc.1.set :=
  View.cover_of_tiled [⟨rHi, pHi⟩, ⟨rLo, pLo⟩] S1x200x128.size (by rfl) y

/-- The zero offsets of a rank-2 load, -/
private theorem zero_off2 : (![0, 0] : Fin 2 → ℕ) = fun _ => 0 := by
  funext a; fin_cases a <;> rfl
/-- and of a rank-3 one. -/
private theorem zero_off3 : (![0, 0, 0] : Fin 3 → ℕ) = fun _ => 0 := by
  funext a; fin_cases a <;> rfl

/-! ## The body on whole staging buffers -/

set_option maxHeartbeats 1000000 in
/-- On whole staging buffers — the two adjacency halves at `xa`, `xb`, the features at `x`, the weights at `w`, the
    bias at `b`, the output block at anything — the body returns the inputs as they were and the output block at
    `out5 xa xb x w b`.  The body also reads each half of the output block just before storing to it; those values
    are never used, so they do not appear in what is left. -/
private theorem sound_kernel (c : Dev nD) (E : Set ℕ) (i : grid0.Coords)
    (arg1 : Memref sig .tc .vmem S1x200x10000 .f32) (harg1 : arg1.IsWhole)
    (arg2 : Memref sig .tc .vmem S1x200x10000 .f32) (harg2 : arg2.IsWhole)
    (arg3 : Memref sig .tc .vmem S10000x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S2x200x128 .f32) (harg6 : arg6.IsWhole)
    (xa xb : Vec F S1x200x10000 .f32) (x : Vec F S10000x128 .f32) (w : Vec F S128x128 .f32) (b : Vec F S1x128 .f32)
    (K : PUnit → sProp 𝕄) :
    iprop(owns (c : Thread nD τ) arg1 fullShare xa ∗ owns (c : Thread nD τ) arg2 fullShare xb
        ∗ owns (c : Thread nD τ) arg3 fullShare x ∗ owns (c : Thread nD τ) arg4 fullShare w
        ∗ owns (c : Thread nD τ) arg5 fullShare b ∗ (∃ d, owns (c : Thread nD τ) arg6 fullShare d)
        ∗ (iprop(owns (c : Thread nD τ) arg1 fullShare xa ∗ owns (c : Thread nD τ) arg2 fullShare xb
            ∗ owns (c : Thread nD τ) arg3 fullShare x ∗ owns (c : Thread nD τ) arg4 fullShare w
            ∗ owns (c : Thread nD τ) arg5 fullShare b ∗ owns (c : Thread nD τ) arg6 fullShare (out5 xa xb x w b)) -∗ K ⟨⟩))
      ⊢ wp frame (wpE (defs₀ (F := F)) Variants.none c none) E
          (cc0__gcn_body i arg1 harg1 arg2 harg2 arg3 harg3 arg4 harg4 arg5 harg5 arg6 harg6) K := by
  simp only [cc0__gcn_body_eq_skeleton]; unfold cc0__gcn_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (halves_cover _ _)]
  -- each whole-buffer load reads the buffer's contents
  rw [View.readAt_eq_ld, View.readAt_eq_ld, View.readAt_eq_ld, View.readAt_eq_ld, View.readAt_eq_ld,
    View.ld_unit_zero (S := S10000x128) zero_off2, View.ld_unit_zero (S := S128x128) zero_off2,
    View.ld_unit_zero (S := S1x128) zero_off2, View.ld_unit_zero (S := S1x200x10000) zero_off3,
    View.ld_unit_zero (S := S1x200x10000) zero_off3]
  unfold out5
  rfl

/-! ## What the body finds in the input buffers -/

/-- Each input window's current staging buffer holds that window's block at every point, fetched there or not: the
    body leaves every input block in place, and where the pipeline does not fetch, the block index has not moved
    (the two adjacency halves are fetched at every point; features, weights and bias at the first point only). -/

private theorem before_in0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
private theorem before_in1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
private theorem before_in2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
private theorem before_in3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
private theorem before_in4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)

/-! ## The body obligation at a point -/

/-- What the body is called with at point `t`, window by window: the inputs' buffers and the output's at anything; -/
private def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
private def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the input buffers hold their blocks, so the body's triple applies; the (empty) invariant
    and what the core owes pass through untouched. -/
private theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KSplit.lean ====
/-
  The launch hands the pipeline the buffers behind its windows' arrays, each whole; the two windows on the adjacency
  each take half of its share.
-/
import proofs.«158242_g82179904241989_cont_9to1_m_260_6_alg».proof.Proof.KData
import Idealize.ShloMosaic.Lib.Pipeline.Kit
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the six windows' arrays, listed. -/
private theorem img_eq :
    Finset.univ.image (Pipeline.arrRef spec0) = ([main_v0, main_arg0, main_arg2, main_v1, main_v2] : List (Ref sig .tc)).toFinset := by
  decide

/-- The buffers behind the windows' arrays, each whole at the full share, one by one. -/
private theorem arrBufs_eq (c : Dev nD) :
    (Pipeline.arrBufs spec0 c (V m c) : sProp 𝕄)
      = iprop((((c.tc : Thread nD τ).loc main_v0) ↦{fullShare} V m c main_v0) ∗ (((c.tc : Thread nD τ).loc main_arg0) ↦{fullShare} V m c main_arg0)
          ∗ (((c.tc : Thread nD τ).loc main_arg2) ↦{fullShare} V m c main_arg2) ∗ (((c.tc : Thread nD τ).loc main_v1) ↦{fullShare} V m c main_v1)
          ∗ (((c.tc : Thread nD τ).loc main_v2) ↦{fullShare} V m c main_v2)) := by
  unfold Pipeline.arrBufs
  exact bigSep_eq_bigSepL_of_eq _ img_eq (by decide) _

/-! Each window's array is a whole buffer: its points-to in the plain form, at the window's share. -/

private theorem arr0 (c : Dev nD) :
    ((cfg0.win 0).arr.view.loc (c.tc : Thread nD τ) ↦[(cfg0.win 0).arr.view.set]{(dats m 0 c).share 0} (dats m 0 c).arrAt 0 0 : sProp 𝕄)
      = (((c.tc : Thread nD τ).loc main_v0) ↦{fullShare.left} V m c main_v0) := by
  rw [(arr_whole0 0).set_eq_univ, share0]; rfl

private theorem arr1 (c : Dev nD) :
    ((cfg0.win 1).arr.view.loc (c.tc : Thread nD τ) ↦[(cfg0.win 1).arr.view.set]{(dats m 0 c).share 1} (dats m 0 c).arrAt 1 0 : sProp 𝕄)
      = (((c.tc : Thread nD τ).loc main_v0) ↦{fullShare.right} V m c main_v0) := by
  rw [(arr_whole0 1).set_eq_univ, share1]; rfl

private theorem arr2 (c : Dev nD) :
    ((cfg0.win 2).arr.view.loc (c.tc : Thread nD τ) ↦[(cfg0.win 2).arr.view.set]{(dats m 0 c).share 2} (dats m 0 c).arrAt 2 0 : sProp 𝕄)
      = (((c.tc : Thread nD τ).loc main_arg0) ↦{fullShare} V m c main_arg0) := by
  rw [(arr_whole0 2).set_eq_univ, share2]; rfl

private theorem arr3 (c : Dev nD) :
    ((cfg0.win 3).arr.view.loc (c.tc : Thread nD τ) ↦[(cfg0.win 3).arr.view.set]{(dats m 0 c).share 3} (dats m 0 c).arrAt 3 0 : sProp 𝕄)
      = (((c.tc : Thread nD τ).loc main_arg2) ↦{fullShare} V m c main_arg2) := by
  rw [(arr_whole0 3).set_eq_univ, share3]; rfl

private theorem arr4 (c : Dev nD) :
    ((cfg0.win 4).arr.view.loc (c.tc : Thread nD τ) ↦[(cfg0.win 4).arr.view.set]{(dats m 0 c).share 4} (dats m 0 c).arrAt 4 0 : sProp 𝕄)
      = (((c.tc : Thread nD τ).loc main_v1) ↦{fullShare} V m c main_v1) := by
  rw [(arr_whole0 4).set_eq_univ, share4]; rfl

private theorem arr5 (c : Dev nD) :
    ((cfg0.win 5).arr.view.loc (c.tc : Thread nD τ) ↦[(cfg0.win 5).arr.view.set]{(dats m 0 c).share 5} (dats m 0 c).arrAt 5 0 : sProp 𝕄)
      = (((c.tc : Thread nD τ).loc main_v2) ↦{fullShare} V m c main_v2) := by
  rw [(arr_whole0 5).set_eq_univ, share5]; rfl

theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0, arr0, arr1, arr2, arr3, arr4, arr5]
  iintro ⟨H0, H2, H3, H4, H5⟩
  -- the adjacency's buffer in two halves, one for each window that reads it
  ihave H0 := (pointsTo_share (PosShare.mem_left_op_right fullShare)).1 $$ H0
  icases H0 with ⟨Ha, Hb⟩
  isplitl [Ha]; · iexact Ha
  isplitl [Hb]; · iexact Hb
  isplitl [H2]; · iexact H2
  isplitl [H3]; · iexact H3
  isplitl [H4]; · iexact H4
  iexact H5

end Cert.Kernel.Hand

end
-- ==== Proof.KTail.lean ====
/-
  The reshape after the region.

  After the kernel region @main reshapes the output array (2 × 5000 × 128) to the result (10000 × 128). Here: what
  the buffers hold after that reshape (the result is the reshape of the output array as the last write-back left it;
  the inputs that bypass the region are untouched, and so are the two inputs the region reads whole), and the run of
  the reshape from the region's exit: it reads the output array and writes the result, so it runs within these two
  buffers, each held whole; every other buffer is carried across unchanged.
-/
import proofs.«158242_g82179904241989_cont_9to1_m_260_6_alg».proof.Proof.KData
import Idealize.ShloMosaic.Lib.Pipeline.Kit
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers after the region and the last reshape: the output array at what the write-backs left, the result its reshape. -/
def W0 (c : Dev nD) : Valuation τ sig (Elt F) :=
  StableHlo.after hostOps1 (Function.update (V0 m c) (Proc.devRef .tc main_v2) (outArr m c))
abbrev W (c : Dev nD) (b : Ref sig .tc) : Buf (Elt F) ((c : Thread nD τ).loc b) := W0 m c (Proc.devRef .tc b)

theorem W_main_v3 (c : Dev nD) : W m c main_v3 = shapeCast S10000x128 (outArr m c) shapeCasts_S2x5000x128_S10000x128 := by
  show StableHlo.after hostOps1 _ (Proc.devRef .tc main_v3) = _
  after_results
  rw [Function.update_self]
  rfl
theorem W_main_arg1 (c : Dev nD) : W m c main_arg1 = m ((c.tc : Thread nD τ).loc main_arg1) := by
  show StableHlo.after hostOps1 _ (Proc.devRef .tc main_arg1) = _
  after_results
  rw [Function.update_of_ne (StableHlo.devRef_ne_of_ne (by decide))]
  dsimp only [V0]
  simp only [hostOps0, List.flatten_cons, List.flatten_nil, List.append_nil]
  after_results
theorem W_main_arg3 (c : Dev nD) : W m c main_arg3 = m ((c.tc : Thread nD τ).loc main_arg3) := by
  show StableHlo.after hostOps1 _ (Proc.devRef .tc main_arg3) = _
  after_results
  rw [Function.update_of_ne (StableHlo.devRef_ne_of_ne (by decide))]
  dsimp only [V0]
  simp only [hostOps0, List.flatten_cons, List.flatten_nil, List.append_nil]
  after_results
theorem V_main_arg0 (c : Dev nD) : V m c main_arg0 = m ((c.tc : Thread nD τ).loc main_arg0) := by
  dsimp only [V, V0]
  simp only [hostOps0, List.flatten_cons, List.flatten_nil, List.append_nil]
  after_results
theorem V_main_arg2 (c : Dev nD) : V m c main_arg2 = m ((c.tc : Thread nD τ).loc main_arg2) := by
  dsimp only [V, V0]
  simp only [hostOps0, List.flatten_cons, List.flatten_nil, List.append_nil]
  after_results

/-! ## The host line after the region

The reshape reads the output array and writes the result; it runs within these two buffers. -/

/-- The two buffers the reshape after the region touches. -/
private abbrev tailS : Finset (DevRef τ sig) := {Proc.devRef .tc main_v2, Proc.devRef .tc main_v3}

/-- The core's buffers as the region leaves them: the output array at what the write-backs left, the rest as found. -/
private abbrev Vexit (c : Dev nD) : Valuation τ sig (Elt F) :=
  Function.update (V0 m c) (Proc.devRef .tc main_v2) (outArr m c)

private theorem v2_ne_v3 : (Proc.devRef .tc main_v2 : DevRef τ sig) ≠ Proc.devRef .tc main_v3 :=
  StableHlo.devRef_ne_of_ne (by decide)

/-- The output window's array, whole at the full share, at the output array after the last write-back. -/
private theorem win5_pts (c : Dev nD) :
    ((cfg0.win 5).arr.view.loc (c.tc : Thread nD τ) ↦[(cfg0.win 5).arr.view.set]{(dats m 0 c).share 5} (dats m 0 c).arrAt 5 cfg0.N : sProp 𝕄)
      = iprop(((c.tc : Thread nD τ).loc main_v2) ↦{fullShare} outArr m c) := by
  rw [(Gen.arr_whole0 5).set_eq_univ, share5]
  rfl

/-- The two buffers at the region's exit. -/
private theorem held_exit (c : Dev nD) :
    (StableHlo.held (c.tc : Thread nD τ) tailS (Vexit m c) : sProp 𝕄)
      = iprop((((c.tc : Thread nD τ).loc main_v2) ↦{fullShare} outArr m c) ∗ (((c.tc : Thread nD τ).loc main_v3) ↦{fullShare} V m c main_v3)) := by
  unfold StableHlo.held
  rw [BI.bigSep_insert (by rw [Finset.mem_singleton]; exact v2_ne_v3), BI.bigSep_singleton]
  dsimp only [Vexit]
  rw [Function.update_self, Function.update_of_ne v2_ne_v3.symm]
  rfl

/-- The two buffers after the reshape: the output array unwritten, the result at its reshape. -/
private theorem held_after (c : Dev nD) :
    (StableHlo.held (c.tc : Thread nD τ) tailS (StableHlo.after hostOps1 (Vexit m c)) : sProp 𝕄)
      = iprop((((c.tc : Thread nD τ).loc main_v2) ↦{fullShare} outArr m c) ∗ (((c.tc : Thread nD τ).loc main_v3) ↦{fullShare} W m c main_v3)) := by
  have h2 : StableHlo.after hostOps1 (Vexit m c) (Proc.devRef .tc main_v2) = outArr m c := by
    after_results
    dsimp only [Vexit]
    rw [Function.update_self]
  unfold StableHlo.held
  rw [BI.bigSep_insert (by rw [Finset.mem_singleton]; exact v2_ne_v3), BI.bigSep_singleton, h2]
  rfl

/-- The reshape after the region leaves the two bypassing inputs as the region found them. -/
private theorem W_eq_V_arg1 (c : Dev nD) : W m c main_arg1 = V m c main_arg1 := by
  rw [W_main_arg1]
  dsimp only [V, V0]
  simp only [hostOps0, List.flatten_cons, List.flatten_nil, List.append_nil]
  after_results
private theorem W_eq_V_arg3 (c : Dev nD) : W m c main_arg3 = V m c main_arg3 := by
  rw [W_main_arg3]
  dsimp only [V, V0]
  simp only [hostOps0, List.flatten_cons, List.flatten_nil, List.append_nil]
  after_results

theorem htail (c : Dev nD) (Q' : PUnit → sProp 𝕄) :
    iprop((iprop((dats m 0 c).arrays ((dats m 0 c).arrAt · cfg0.N) ∗ Pipeline.unscopedRest spec0 c (W m c)) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (pcfgs (F := F)) defs₀) (Variants.lift Variants.none) (c.tc : Thread nD τ) none) Set.univ
          (Pipeline.chain [StableHlo.seq hostOps1]) Q' := by
  rw [Pipeline.chain_cons, Pipeline.chain_nil]
  unfold Dat.arrays
  rw [Gen.bigSep_W0, Gen.unscopedRest0_eq, Gen.unscopedRest0_eq, win5_pts, W_eq_V_arg1, W_eq_V_arg3]
  iintro ⟨Hk, Hb, ⟨H0, H1, H2, H3, H4, H5⟩, Ha1, Ha3, Hv3⟩
  iapply (StableHlo.wp_seq (Variants.lift Variants.none) none Set.univ c tailS _ hostOps1
    (fun op hop => by
      obtain rfl := List.mem_singleton.mp hop
      exact subset_of_eq (StableHlo.reshape_bufs ..))
    (fun op hop => by
      obtain rfl := List.mem_singleton.mp hop
      rfl)
    (Vexit m c)) $$ [Hb H5 Hv3]
  · rw [held_exit]
    isplitl [Hb]
    · iexact Hb
    isplitl [H5]
    · iexact H5
    iexact Hv3
  iintro ⟨Hb, H⟩
  rw [wp_pure]
  imodintro
  ihave H' := (Entails.of_eq (held_after m c)) $$ H
  icases H' with ⟨H5, Hv3⟩
  iapply Hk
  icases Hb with -
  isplitl [H0 H1 H2 H3 H4 H5]
  · isplitl [H0]
    · iexact H0
    isplitl [H1]
    · iexact H1
    isplitl [H2]
    · iexact H2
    isplitl [H3]
    · iexact H3
    isplitl [H4]
    · iexact H4
    iexact H5
  isplitl [Ha1]
  · iexact Ha1
  isplitl [Ha3]
  · iexact Ha3
  iexact Hv3

end Cert.Kernel.Hand

end
-- ==== Proof.KLaunch.lean ====
/-
  The launch: @main is two reshapes, the region, one reshape.
-/
import proofs.«158242_g82179904241989_cont_9to1_m_260_6_alg».proof.Proof.KData
import proofs.«158242_g82179904241989_cont_9to1_m_260_6_alg».proof.Proof.KBody
import proofs.«158242_g82179904241989_cont_9to1_m_260_6_alg».proof.Proof.KSplit
import proofs.«158242_g82179904241989_cont_9to1_m_260_6_alg».proof.Proof.KTail
import Idealize.ShloMosaic.Lib.Pipeline.Kit
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

set_option backward.isDefEq.respectTransparency.types false in
theorem run_main : θ_run defs (onTc (τ := τ) (main (F := F))) ⟨m, fun _ => 0, ρ⟩ (fun r => ∀ c : Dev nD,
      r.2.mem ((c.tc : Thread nD τ).loc main_v3) = shapeCast S10000x128 (outArr m c) shapeCasts_S2x5000x128_S10000x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_region_noSem_pf_tail (pcfgs (F := F)) (fun p => (cfgs p).toPCfg_adm) (dats m) () cellOf_inj 0 winFacts₀0
    (Pipeline.PreFacts.none _) emb₁ defs₀ Variants.none m ρ main (fun _ => Pipeline.chain [StableHlo.seq hostOps1])
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none) (hsplit := hsplit m) (hpf := fun _ k => k.elim0)
    (X := fun _ => iprop(emp)) (Y := fun _ => iprop(emp))
    (Z := fun c => Pipeline.unscopedRest spec0 c (V m c)) (Z' := fun c => Pipeline.unscopedRest spec0 c (W m c))
    (hX := fun c => by rw [Pipeline.unscopedRestP_none]; iintro H; isplitr; · iempintro
                       iexact H)
    (hin := fun c => by iintro _; iempintro)
    (hout := fun c => by rw [scopedRest0_eq]; iintro _; isplitl <;> iempintro)
    (htail := htail m)
    (QY := fun c s => ∀ b ∈ (Finset.univ.filter fun b : Ref sig .tc => ¬ b.isScoped) \ Finset.univ.image (Pipeline.arrRef spec0),
        s.mem ((c.tc : Thread nD τ).loc b) = W m c b)
    (hY := fun c s' => by
      iintro ⟨-, HU, HSI⟩
      unfold Pipeline.unscopedRest
      imodintro
      iapply (pointsTo_read_all _ (fun b => (c.tc : Thread nD τ).loc b) (W m c) s')
      isplitl [HU] <;> iassumption)
    (hQ := fun s h c =>
      ⟨((h c).2.2 main_v3 (by decide)).trans (W_main_v3 m c),
       ((h c).1 2).trans (((dats m 0 c).arrAt_in 2 rfl _).trans ((A_eq m c 2).trans (V_main_arg0 m c))),
       ((h c).2.2 main_arg1 (by decide)).trans (W_main_arg1 m c),
       ((h c).1 3).trans (((dats m 0 c).arrAt_in 3 rfl _).trans ((A_eq m c 3).trans (V_main_arg2 m c))),
       ((h c).2.2 main_arg3 (by decide)).trans (W_main_arg3 m c)⟩)

end Cert.Kernel.Hand

end
-- ==== Proof.IData.lean ====
/-
  The proof data of the graph-convolution kernel's one pipeline, at any float instance.

  The kernel computes, for each of 25 grid points t and each half h ∈ {0, 1} of the adjacency's rows,
  the 200 × 128 block  (adj[h·5000 + 200·t ..][·] · x) · w + b  and stores it at leading index h of its
  2 × 200 × 128 output block.  The adjacency, viewed as 2 × 5000 × 10000, is handed to the kernel through
  TWO input windows (one per half), so the two windows read one array: each holds half of the array's share.
  Here: the arrays as the region finds them (after the two reshapes of @main), each window's block at a
  point, what the body leaves in the output block (the two stores, the later one first), and the proof data.
-/
import proofs.«158242_g82179904241989_cont_9to1_m_260_6_alg».proof.Proof.Gen.KernelIdeal.Launch
import proofs.«158242_g82179904241989_cont_9to1_m_260_6_alg».proof.Proof.Gen.KernelIdeal.Skeleton
import proofs.«158242_g82179904241989_cont_9to1_m_260_6_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output block -/

/-- The lower half of the output block (leading index 0), -/
abbrev rLo : Rect S2x200x128 := Rect.unit (s := S2x200x128) ![0, 0, 0] S1x200x128.size inb_S2x200x128_S1x200x128_0_0_0
/-- and the upper half (leading index 1). -/
abbrev rHi : Rect S2x200x128 := Rect.unit (s := S2x200x128) ![1, 0, 0] S1x200x128.size inb_S2x200x128_S1x200x128_1_0_0

/-- The output block after the body, from the input blocks: the first half's product stored at leading index 0,
    the second half's at leading index 1 (the later store listed first). -/
def out5 (xa xb : Vec F S1x200x10000 .f32) (x : Vec F S10000x128 .f32) (w : Vec F S128x128 .f32) (b : Vec F S1x128 .f32) :
    Vec F S2x200x128 .f32 :=
  View.canon [⟨rHi, k0_pay3 x w b xb⟩, ⟨rLo, k0_pay2 x w b xa⟩]

/-! ## The proof data -/

/-- The proof data on core `c`: the arrays as the region finds them; each input's staging buffer left at its block,
    the output's at `out5` of the input blocks; no invariant of the body's own; the adjacency's share dealt in halves
    to the two windows that read it, every other input held whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := (BI.emp : sProp 𝕄)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = out5 (iblk m c 0 t) (iblk m c 1 t) (iblk m c 2 t) (iblk m c 3 t) (iblk m c 4 t) := by dsimp only [dats]

/-- The output array (2 × 5000 × 128) after the last point's write-back. -/
def outArr (c : Dev nD) : Vec F S2x5000x128 .f32 := (dats m 0 c).arrAt 5 cfg0.N

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl

end Cert.KernelIdeal.Hand

end
-- ==== Proof.IBody.lean ====
/-
  The body obligation of the graph-convolution kernel at every grid point.

  The body reads the three operands held whole (features, weights, bias), then for each half of the adjacency
  block reads that half, forms (half · features) · weights + bias, and stores it at that half's leading index of
  the output block.  The two stores tile the output block, so what the body leaves there is a closed function of
  the input blocks: the two payloads laid side by side.
-/
import proofs.«158242_g82179904241989_cont_9to1_m_260_6_alg».proof.Proof.IData
import Idealize.ShloMosaic.Lib.Ring
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two stores fill the output block -/

/-- Every index of the 2 × 200 × 128 output block has leading coordinate 0 or 1, so it lies in the lower or in the
    upper half: the two stored halves tile the block. -/
private theorem halves_cover (pHi pLo : Vec F S1x200x128 .f32) (y : S2x200x128.Idx) :
    ∃ pc ∈ ([⟨rHi, pHi⟩, ⟨rLo, pLo⟩] : List (View.Piece (Elt F) S2x200x128 .f32)), y ∈ pc.1.set :=
  View.cover_of_tiled [⟨rHi, pHi⟩, ⟨rLo, pLo⟩] S1x200x128.size (by rfl) y

/-- The zero offsets of a rank-2 load, -/
private theorem zero_off2 : (![0, 0] : Fin 2 → ℕ) = fun _ => 0 := by
  funext a; fin_cases a <;> rfl
/-- and of a rank-3 one. -/
private theorem zero_off3 : (![0, 0, 0] : Fin 3 → ℕ) = fun _ => 0 := by
  funext a; fin_cases a <;> rfl

/-! ## The body on whole staging buffers -/

set_option maxHeartbeats 1000000 in
/-- On whole staging buffers — the two adjacency halves at `xa`, `xb`, the features at `x`, the weights at `w`, the
    bias at `b`, the output block at anything — the body returns the inputs as they were and the output block at
    `out5 xa xb x w b`.  The body also reads each half of the output block just before storing to it; those values
    are never used, so they do not appear in what is left. -/
private theorem sound_kernel (c : Dev nD) (E : Set ℕ) (i : grid0.Coords)
    (arg1 : Memref sig .tc .vmem S1x200x10000 .f32) (harg1 : arg1.IsWhole)
    (arg2 : Memref sig .tc .vmem S1x200x10000 .f32) (harg2 : arg2.IsWhole)
    (arg3 : Memref sig .tc .vmem S10000x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S2x200x128 .f32) (harg6 : arg6.IsWhole)
    (xa xb : Vec F S1x200x10000 .f32) (x : Vec F S10000x128 .f32) (w : Vec F S128x128 .f32) (b : Vec F S1x128 .f32)
    (K : PUnit → sProp 𝕄) :
    iprop(owns (c : Thread nD τ) arg1 fullShare xa ∗ owns (c : Thread nD τ) arg2 fullShare xb
        ∗ owns (c : Thread nD τ) arg3 fullShare x ∗ owns (c : Thread nD τ) arg4 fullShare w
        ∗ owns (c : Thread nD τ) arg5 fullShare b ∗ (∃ d, owns (c : Thread nD τ) arg6 fullShare d)
        ∗ (iprop(owns (c : Thread nD τ) arg1 fullShare xa ∗ owns (c : Thread nD τ) arg2 fullShare xb
            ∗ owns (c : Thread nD τ) arg3 fullShare x ∗ owns (c : Thread nD τ) arg4 fullShare w
            ∗ owns (c : Thread nD τ) arg5 fullShare b ∗ owns (c : Thread nD τ) arg6 fullShare (out5 xa xb x w b)) -∗ K ⟨⟩))
      ⊢ wp frame (wpE (defs₀ (F := F)) Variants.none c none) E
          (cc0__gcn_body i arg1 harg1 arg2 harg2 arg3 harg3 arg4 harg4 arg5 harg5 arg6 harg6) K := by
  simp only [cc0__gcn_body_eq_skeleton]; unfold cc0__gcn_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (halves_cover _ _)]
  -- each whole-buffer load reads the buffer's contents
  rw [View.readAt_eq_ld, View.readAt_eq_ld, View.readAt_eq_ld, View.readAt_eq_ld, View.readAt_eq_ld,
    View.ld_unit_zero (S := S10000x128) zero_off2, View.ld_unit_zero (S := S128x128) zero_off2,
    View.ld_unit_zero (S := S1x128) zero_off2, View.ld_unit_zero (S := S1x200x10000) zero_off3,
    View.ld_unit_zero (S := S1x200x10000) zero_off3]
  unfold out5
  rfl

/-! ## What the body finds in the input buffers -/

/-- Each input window's current staging buffer holds that window's block at every point, fetched there or not: the
    body leaves every input block in place, and where the pipeline does not fetch, the block index has not moved
    (the two adjacency halves are fetched at every point; features, weights and bias at the first point only). -/

private theorem before_in0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
private theorem before_in1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
private theorem before_in2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
private theorem before_in3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
private theorem before_in4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)

/-! ## The body obligation at a point -/

/-- What the body is called with at point `t`, window by window: the inputs' buffers and the output's at anything; -/
private def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
private def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the input buffers hold their blocks, so the body's triple applies; the (empty) invariant
    and what the core owes pass through untouched. -/
private theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.ISplit.lean ====
/-
  The launch hands the pipeline the buffers behind its windows' arrays, each whole; the two windows on the adjacency
  each take half of its share.
-/
import proofs.«158242_g82179904241989_cont_9to1_m_260_6_alg».proof.Proof.IData
import Idealize.ShloMosaic.Lib.Pipeline.Kit
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the six windows' arrays, listed. -/
private theorem img_eq :
    Finset.univ.image (Pipeline.arrRef spec0) = ([main_v0, main_arg0, main_arg2, main_v1, main_v2] : List (Ref sig .tc)).toFinset := by
  decide

/-- The buffers behind the windows' arrays, each whole at the full share, one by one. -/
private theorem arrBufs_eq (c : Dev nD) :
    (Pipeline.arrBufs spec0 c (V m c) : sProp 𝕄)
      = iprop((((c.tc : Thread nD τ).loc main_v0) ↦{fullShare} V m c main_v0) ∗ (((c.tc : Thread nD τ).loc main_arg0) ↦{fullShare} V m c main_arg0)
          ∗ (((c.tc : Thread nD τ).loc main_arg2) ↦{fullShare} V m c main_arg2) ∗ (((c.tc : Thread nD τ).loc main_v1) ↦{fullShare} V m c main_v1)
          ∗ (((c.tc : Thread nD τ).loc main_v2) ↦{fullShare} V m c main_v2)) := by
  unfold Pipeline.arrBufs
  exact bigSep_eq_bigSepL_of_eq _ img_eq (by decide) _

/-! Each window's array is a whole buffer: its points-to in the plain form, at the window's share. -/

private theorem arr0 (c : Dev nD) :
    ((cfg0.win 0).arr.view.loc (c.tc : Thread nD τ) ↦[(cfg0.win 0).arr.view.set]{(dats m 0 c).share 0} (dats m 0 c).arrAt 0 0 : sProp 𝕄)
      = (((c.tc : Thread nD τ).loc main_v0) ↦{fullShare.left} V m c main_v0) := by
  rw [(arr_whole0 0).set_eq_univ, share0]; rfl

private theorem arr1 (c : Dev nD) :
    ((cfg0.win 1).arr.view.loc (c.tc : Thread nD τ) ↦[(cfg0.win 1).arr.view.set]{(dats m 0 c).share 1} (dats m 0 c).arrAt 1 0 : sProp 𝕄)
      = (((c.tc : Thread nD τ).loc main_v0) ↦{fullShare.right} V m c main_v0) := by
  rw [(arr_whole0 1).set_eq_univ, share1]; rfl

private theorem arr2 (c : Dev nD) :
    ((cfg0.win 2).arr.view.loc (c.tc : Thread nD τ) ↦[(cfg0.win 2).arr.view.set]{(dats m 0 c).share 2} (dats m 0 c).arrAt 2 0 : sProp 𝕄)
      = (((c.tc : Thread nD τ).loc main_arg0) ↦{fullShare} V m c main_arg0) := by
  rw [(arr_whole0 2).set_eq_univ, share2]; rfl

private theorem arr3 (c : Dev nD) :
    ((cfg0.win 3).arr.view.loc (c.tc : Thread nD τ) ↦[(cfg0.win 3).arr.view.set]{(dats m 0 c).share 3} (dats m 0 c).arrAt 3 0 : sProp 𝕄)
      = (((c.tc : Thread nD τ).loc main_arg2) ↦{fullShare} V m c main_arg2) := by
  rw [(arr_whole0 3).set_eq_univ, share3]; rfl

private theorem arr4 (c : Dev nD) :
    ((cfg0.win 4).arr.view.loc (c.tc : Thread nD τ) ↦[(cfg0.win 4).arr.view.set]{(dats m 0 c).share 4} (dats m 0 c).arrAt 4 0 : sProp 𝕄)
      = (((c.tc : Thread nD τ).loc main_v1) ↦{fullShare} V m c main_v1) := by
  rw [(arr_whole0 4).set_eq_univ, share4]; rfl

private theorem arr5 (c : Dev nD) :
    ((cfg0.win 5).arr.view.loc (c.tc : Thread nD τ) ↦[(cfg0.win 5).arr.view.set]{(dats m 0 c).share 5} (dats m 0 c).arrAt 5 0 : sProp 𝕄)
      = (((c.tc : Thread nD τ).loc main_v2) ↦{fullShare} V m c main_v2) := by
  rw [(arr_whole0 5).set_eq_univ, share5]; rfl

theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0, arr0, arr1, arr2, arr3, arr4, arr5]
  iintro ⟨H0, H2, H3, H4, H5⟩
  -- the adjacency's buffer in two halves, one for each window that reads it
  ihave H0 := (pointsTo_share (PosShare.mem_left_op_right fullShare)).1 $$ H0
  icases H0 with ⟨Ha, Hb⟩
  isplitl [Ha]; · iexact Ha
  isplitl [Hb]; · iexact Hb
  isplitl [H2]; · iexact H2
  isplitl [H3]; · iexact H3
  isplitl [H4]; · iexact H4
  iexact H5

end Cert.KernelIdeal.Hand

end
-- ==== Proof.ITail.lean ====
/-
  The reshape after the region.

  After the kernel region @main reshapes the output array (2 × 5000 × 128) to the result (10000 × 128). Here: what
  the buffers hold after that reshape (the result is the reshape of the output array as the last write-back left it;
  the inputs that bypass the region are untouched, and so are the two inputs the region reads whole), and the run of
  the reshape from the region's exit: it reads the output array and writes the result, so it runs within these two
  buffers, each held whole; every other buffer is carried across unchanged.
-/
import proofs.«158242_g82179904241989_cont_9to1_m_260_6_alg».proof.Proof.IData
import Idealize.ShloMosaic.Lib.Pipeline.Kit
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers after the region and the last reshape: the output array at what the write-backs left, the result its reshape. -/
def W0 (c : Dev nD) : Valuation τ sig (Elt F) :=
  StableHlo.after hostOps1 (Function.update (V0 m c) (Proc.devRef .tc main_v2) (outArr m c))
abbrev W (c : Dev nD) (b : Ref sig .tc) : Buf (Elt F) ((c : Thread nD τ).loc b) := W0 m c (Proc.devRef .tc b)

theorem W_main_v3 (c : Dev nD) : W m c main_v3 = shapeCast S10000x128 (outArr m c) shapeCasts_S2x5000x128_S10000x128 := by
  show StableHlo.after hostOps1 _ (Proc.devRef .tc main_v3) = _
  after_results
  rw [Function.update_self]
  rfl
theorem W_main_arg1 (c : Dev nD) : W m c main_arg1 = m ((c.tc : Thread nD τ).loc main_arg1) := by
  show StableHlo.after hostOps1 _ (Proc.devRef .tc main_arg1) = _
  after_results
  rw [Function.update_of_ne (StableHlo.devRef_ne_of_ne (by decide))]
  dsimp only [V0]
  simp only [hostOps0, List.flatten_cons, List.flatten_nil, List.append_nil]
  after_results
theorem W_main_arg3 (c : Dev nD) : W m c main_arg3 = m ((c.tc : Thread nD τ).loc main_arg3) := by
  show StableHlo.after hostOps1 _ (Proc.devRef .tc main_arg3) = _
  after_results
  rw [Function.update_of_ne (StableHlo.devRef_ne_of_ne (by decide))]
  dsimp only [V0]
  simp only [hostOps0, List.flatten_cons, List.flatten_nil, List.append_nil]
  after_results
theorem V_main_arg0 (c : Dev nD) : V m c main_arg0 = m ((c.tc : Thread nD τ).loc main_arg0) := by
  dsimp only [V, V0]
  simp only [hostOps0, List.flatten_cons, List.flatten_nil, List.append_nil]
  after_results
theorem V_main_arg2 (c : Dev nD) : V m c main_arg2 = m ((c.tc : Thread nD τ).loc main_arg2) := by
  dsimp only [V, V0]
  simp only [hostOps0, List.flatten_cons, List.flatten_nil, List.append_nil]
  after_results

/-! ## The host line after the region

The reshape reads the output array and writes the result; it runs within these two buffers. -/

/-- The two buffers the reshape after the region touches. -/
private abbrev tailS : Finset (DevRef τ sig) := {Proc.devRef .tc main_v2, Proc.devRef .tc main_v3}

/-- The core's buffers as the region leaves them: the output array at what the write-backs left, the rest as found. -/
private abbrev Vexit (c : Dev nD) : Valuation τ sig (Elt F) :=
  Function.update (V0 m c) (Proc.devRef .tc main_v2) (outArr m c)

private theorem v2_ne_v3 : (Proc.devRef .tc main_v2 : DevRef τ sig) ≠ Proc.devRef .tc main_v3 :=
  StableHlo.devRef_ne_of_ne (by decide)

/-- The output window's array, whole at the full share, at the output array after the last write-back. -/
private theorem win5_pts (c : Dev nD) :
    ((cfg0.win 5).arr.view.loc (c.tc : Thread nD τ) ↦[(cfg0.win 5).arr.view.set]{(dats m 0 c).share 5} (dats m 0 c).arrAt 5 cfg0.N : sProp 𝕄)
      = iprop(((c.tc : Thread nD τ).loc main_v2) ↦{fullShare} outArr m c) := by
  rw [(Gen.arr_whole0 5).set_eq_univ, share5]
  rfl

/-- The two buffers at the region's exit. -/
private theorem held_exit (c : Dev nD) :
    (StableHlo.held (c.tc : Thread nD τ) tailS (Vexit m c) : sProp 𝕄)
      = iprop((((c.tc : Thread nD τ).loc main_v2) ↦{fullShare} outArr m c) ∗ (((c.tc : Thread nD τ).loc main_v3) ↦{fullShare} V m c main_v3)) := by
  unfold StableHlo.held
  rw [BI.bigSep_insert (by rw [Finset.mem_singleton]; exact v2_ne_v3), BI.bigSep_singleton]
  dsimp only [Vexit]
  rw [Function.update_self, Function.update_of_ne v2_ne_v3.symm]
  rfl

/-- The two buffers after the reshape: the output array unwritten, the result at its reshape. -/
private theorem held_after (c : Dev nD) :
    (StableHlo.held (c.tc : Thread nD τ) tailS (StableHlo.after hostOps1 (Vexit m c)) : sProp 𝕄)
      = iprop((((c.tc : Thread nD τ).loc main_v2) ↦{fullShare} outArr m c) ∗ (((c.tc : Thread nD τ).loc main_v3) ↦{fullShare} W m c main_v3)) := by
  have h2 : StableHlo.after hostOps1 (Vexit m c) (Proc.devRef .tc main_v2) = outArr m c := by
    after_results
    dsimp only [Vexit]
    rw [Function.update_self]
  unfold StableHlo.held
  rw [BI.bigSep_insert (by rw [Finset.mem_singleton]; exact v2_ne_v3), BI.bigSep_singleton, h2]
  rfl

/-- The reshape after the region leaves the two bypassing inputs as the region found them. -/
private theorem W_eq_V_arg1 (c : Dev nD) : W m c main_arg1 = V m c main_arg1 := by
  rw [W_main_arg1]
  dsimp only [V, V0]
  simp only [hostOps0, List.flatten_cons, List.flatten_nil, List.append_nil]
  after_results
private theorem W_eq_V_arg3 (c : Dev nD) : W m c main_arg3 = V m c main_arg3 := by
  rw [W_main_arg3]
  dsimp only [V, V0]
  simp only [hostOps0, List.flatten_cons, List.flatten_nil, List.append_nil]
  after_results

theorem htail (c : Dev nD) (Q' : PUnit → sProp 𝕄) :
    iprop((iprop((dats m 0 c).arrays ((dats m 0 c).arrAt · cfg0.N) ∗ Pipeline.unscopedRest spec0 c (W m c)) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (pcfgs (F := F)) defs₀) (Variants.lift Variants.none) (c.tc : Thread nD τ) none) Set.univ
          (Pipeline.chain [StableHlo.seq hostOps1]) Q' := by
  rw [Pipeline.chain_cons, Pipeline.chain_nil]
  unfold Dat.arrays
  rw [Gen.bigSep_W0, Gen.unscopedRest0_eq, Gen.unscopedRest0_eq, win5_pts, W_eq_V_arg1, W_eq_V_arg3]
  iintro ⟨Hk, Hb, ⟨H0, H1, H2, H3, H4, H5⟩, Ha1, Ha3, Hv3⟩
  iapply (StableHlo.wp_seq (Variants.lift Variants.none) none Set.univ c tailS _ hostOps1
    (fun op hop => by
      obtain rfl := List.mem_singleton.mp hop
      exact subset_of_eq (StableHlo.reshape_bufs ..))
    (fun op hop => by
      obtain rfl := List.mem_singleton.mp hop
      rfl)
    (Vexit m c)) $$ [Hb H5 Hv3]
  · rw [held_exit]
    isplitl [Hb]
    · iexact Hb
    isplitl [H5]
    · iexact H5
    iexact Hv3
  iintro ⟨Hb, H⟩
  rw [wp_pure]
  imodintro
  ihave H' := (Entails.of_eq (held_after m c)) $$ H
  icases H' with ⟨H5, Hv3⟩
  iapply Hk
  icases Hb with -
  isplitl [H0 H1 H2 H3 H4 H5]
  · isplitl [H0]
    · iexact H0
    isplitl [H1]
    · iexact H1
    isplitl [H2]
    · iexact H2
    isplitl [H3]
    · iexact H3
    isplitl [H4]
    · iexact H4
    iexact H5
  isplitl [Ha1]
  · iexact Ha1
  isplitl [Ha3]
  · iexact Ha3
  iexact Hv3

end Cert.KernelIdeal.Hand

end
-- ==== Proof.ILaunch.lean ====
/-
  The launch: @main is two reshapes, the region, one reshape.
-/
import proofs.«158242_g82179904241989_cont_9to1_m_260_6_alg».proof.Proof.IData
import proofs.«158242_g82179904241989_cont_9to1_m_260_6_alg».proof.Proof.IBody
import proofs.«158242_g82179904241989_cont_9to1_m_260_6_alg».proof.Proof.ISplit
import proofs.«158242_g82179904241989_cont_9to1_m_260_6_alg».proof.Proof.ITail
import Idealize.ShloMosaic.Lib.Pipeline.Kit
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

set_option backward.isDefEq.respectTransparency.types false in
theorem run_main : θ_run defs (onTc (τ := τ) (main (F := F))) ⟨m, fun _ => 0, ρ⟩ (fun r => ∀ c : Dev nD,
      r.2.mem ((c.tc : Thread nD τ).loc main_v3) = shapeCast S10000x128 (outArr m c) shapeCasts_S2x5000x128_S10000x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_region_noSem_pf_tail (pcfgs (F := F)) (fun p => (cfgs p).toPCfg_adm) (dats m) () cellOf_inj 0 winFacts₀0
    (Pipeline.PreFacts.none _) emb₁ defs₀ Variants.none m ρ main (fun _ => Pipeline.chain [StableHlo.seq hostOps1])
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none) (hsplit := hsplit m) (hpf := fun _ k => k.elim0)
    (X := fun _ => iprop(emp)) (Y := fun _ => iprop(emp))
    (Z := fun c => Pipeline.unscopedRest spec0 c (V m c)) (Z' := fun c => Pipeline.unscopedRest spec0 c (W m c))
    (hX := fun c => by rw [Pipeline.unscopedRestP_none]; iintro H; isplitr; · iempintro
                       iexact H)
    (hin := fun c => by iintro _; iempintro)
    (hout := fun c => by rw [scopedRest0_eq]; iintro _; isplitl <;> iempintro)
    (htail := htail m)
    (QY := fun c s => ∀ b ∈ (Finset.univ.filter fun b : Ref sig .tc => ¬ b.isScoped) \ Finset.univ.image (Pipeline.arrRef spec0),
        s.mem ((c.tc : Thread nD τ).loc b) = W m c b)
    (hY := fun c s' => by
      iintro ⟨-, HU, HSI⟩
      unfold Pipeline.unscopedRest
      imodintro
      iapply (pointsTo_read_all _ (fun b => (c.tc : Thread nD τ).loc b) (W m c) s')
      isplitl [HU] <;> iassumption)
    (hQ := fun s h c =>
      ⟨((h c).2.2 main_v3 (by decide)).trans (W_main_v3 m c),
       ((h c).1 2).trans (((dats m 0 c).arrAt_in 2 rfl _).trans ((A_eq m c 2).trans (V_main_arg0 m c))),
       ((h c).2.2 main_arg1 (by decide)).trans (W_main_arg1 m c),
       ((h c).1 3).trans (((dats m 0 c).arrAt_in 3 rfl _).trans ((A_eq m c 3).trans (V_main_arg2 m c))),
       ((h c).2.2 main_arg3 (by decide)).trans (W_main_arg3 m c)⟩)

end Cert.KernelIdeal.Hand

end
-- ==== Proof.Spec.lean ====
/-
  The graph convolution as one function of the four argument arrays, entry by entry:
  out[r, c] = (Σ_k (Σ_j adj[r, j] · x[j, k]) · w[k, c]) + b[c]  over the extended reals.
-/
import Idealize.ShloMosaic.Lib.ValueIdx
import Idealize.ShloMosaic.PureOps.Ideal

open scoped BigOperators

noncomputable section

namespace Cert.GcnSpec

open Idealize.ShloMosaic Idealize.ShloMosaic.ValueIdx

/-- Entry (r, c) of the result: row r of the adjacency against the features, then against column c of the weight,
    plus the bias at c. -/
def g (x : FVec Ideal ⟨2, ![10000, 128]⟩ .f32) (adj : FVec Ideal ⟨2, ![10000, 10000]⟩ .f32)
    (w : FVec Ideal ⟨2, ![128, 128]⟩ .f32) (b : FVec Ideal ⟨1, ![128]⟩ .f32) (r : Fin 10000) (c : Fin 128) : EReal :=
  (∑ k : Fin 128, (∑ j : Fin 10000, adj (ix2 r j) * x (ix2 j k)) * w (ix2 k c)) + b (ix1 c)

/-- The whole result array. -/
def G (x : FVec Ideal ⟨2, ![10000, 128]⟩ .f32) (adj : FVec Ideal ⟨2, ![10000, 10000]⟩ .f32)
    (w : FVec Ideal ⟨2, ![128, 128]⟩ .f32) (b : FVec Ideal ⟨1, ![128]⟩ .f32) : FVec Ideal ⟨2, ![10000, 128]⟩ .f32 :=
  fun i => g x adj w b (i 0) (i 1)

theorem G_ix2 (x : FVec Ideal ⟨2, ![10000, 128]⟩ .f32) (adj : FVec Ideal ⟨2, ![10000, 10000]⟩ .f32)
    (w : FVec Ideal ⟨2, ![128, 128]⟩ .f32) (b : FVec Ideal ⟨1, ![128]⟩ .f32) (r : Fin 10000) (c : Fin 128) :
    G x adj w b (ix2 r c) = g x adj w b r c := rfl

end Cert.GcnSpec

end
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.IValue.lean ====
/-
  The kernel's result at the ideal values is the specification.

  Every grid point t writes back, at leading index h ∈ {0, 1} of its 2 × 200 × 128 output block, the rows
  200·t … 200·t + 199 of half h of  (adj · x) · w + b.  So the output array (2 × 5000 × 128) ends holding ONE function
  of the arrays the region finds, entry by entry; reshaped to 10000 × 128 (row 5000·h + r' is entry (h, r')) and with
  the adjacency and bias read back through their own reshapes, that function is the specification's entry.
-/
import proofs.«158242_g82179904241989_cont_9to1_m_260_6_alg».proof.Proof.IData
import proofs.«158242_g82179904241989_cont_9to1_m_260_6_alg».proof.Proof.Spec
import proofs.«158242_g82179904241989_cont_9to1_m_260_6_alg».proof.Proof.LibPlainMatmul
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

open scoped BigOperators

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## The body's two stored values at an index -/

/-- The first half's stored value at (0, p, q): row p of the block against the features, then against column q of the
    weight, plus the bias at q. -/
private theorem pay2_apply (x : Vec Ideal S10000x128 .f32) (w : Vec Ideal S128x128 .f32) (b1 : Vec Ideal S1x128 .f32)
    (xa : Vec Ideal S1x200x10000 .f32) (p : Fin 200) (q : Fin 128) :
    k0_pay2 x w b1 xa (ix3 (0 : Fin 1) p q)
      = (∑ k : Fin 128, (∑ j : Fin 10000, xa (ix3 (0 : Fin 1) p j) * x (ix2 j k)) * w (ix2 k q))
          + b1 (ix2 (0 : Fin 1) q) := by
  unfold k0_pay2 k0_pay1
  refine (shapeCast_ab_1ab_apply _ _ 0 p q).trans ?_
  refine (addf_apply _ _ _).trans ?_
  refine congrArg₂ (· + ·) ?_ ?_
  · refine (PlainMatmul.matmul_zero_apply _ dot_S200x128_S128x128_S200x128_1_0_0_1_n_n_wf rfl none _ w p q).trans ?_
    refine Finset.sum_congr rfl fun k _ => ?_
    refine congrArg (· * w (ix2 k q)) ?_
    refine (PlainMatmul.matmul_zero_apply _ dot_S200x10000_S10000x128_S200x128_1_0_0_1_n_n_wf rfl none _ x p k).trans ?_
    refine Finset.sum_congr rfl fun j _ => ?_
    refine congrArg (· * x (ix2 j k)) ?_
    exact shapeCast_1ab_ab_apply xa _ p j
  · refine (broadcastTo_1b_ab_apply _ _ p q).trans ?_
    exact congrFun (shapeCast_self b1 _) _

/-- The second half's stored value at (0, p, q): the same function of the second block. -/
private theorem pay3_apply (x : Vec Ideal S10000x128 .f32) (w : Vec Ideal S128x128 .f32) (b1 : Vec Ideal S1x128 .f32)
    (xb : Vec Ideal S1x200x10000 .f32) (p : Fin 200) (q : Fin 128) :
    k0_pay3 x w b1 xb (ix3 (0 : Fin 1) p q)
      = (∑ k : Fin 128, (∑ j : Fin 10000, xb (ix3 (0 : Fin 1) p j) * x (ix2 j k)) * w (ix2 k q))
          + b1 (ix2 (0 : Fin 1) q) := by
  unfold k0_pay3 k0_pay1
  refine (shapeCast_ab_1ab_apply _ _ 0 p q).trans ?_
  refine (addf_apply _ _ _).trans ?_
  refine congrArg₂ (· + ·) ?_ ?_
  · refine (PlainMatmul.matmul_zero_apply _ dot_S200x128_S128x128_S200x128_1_0_0_1_n_n_wf rfl none _ w p q).trans ?_
    refine Finset.sum_congr rfl fun k _ => ?_
    refine congrArg (· * w (ix2 k q)) ?_
    refine (PlainMatmul.matmul_zero_apply _ dot_S200x10000_S10000x128_S200x128_1_0_0_1_n_n_wf rfl none _ x p k).trans ?_
    refine Finset.sum_congr rfl fun j _ => ?_
    refine congrArg (· * x (ix2 j k)) ?_
    exact shapeCast_1ab_ab_apply xb _ p j
  · refine (broadcastTo_1b_ab_apply _ _ p q).trans ?_
    exact congrFun (shapeCast_self b1 _) _

variable (m : (ℓ : Loc nD τ sig) → Buf (Elt Ideal) ℓ)

/-! ## The arrays the region finds -/

/-- The adjacency as the region finds it: the argument reshaped to 2 × 5000 × 10000. -/
private theorem region_adj (c : Dev nD) :
    (V m c main_v0 : S2x5000x10000.Idx → Elt Ideal .f32)
      = shapeCast S2x5000x10000 (m ((c.tc : Thread nD τ).loc main_arg1)) shapeCasts_S10000x10000_S2x5000x10000 := by
  dsimp only [V, V0]
  simp only [hostOps0, List.flatten_cons, List.flatten_nil, List.append_nil]
  after_results
  rfl

/-- The bias as the region finds it: the argument reshaped to 1 × 128. -/
private theorem region_bias (c : Dev nD) :
    (V m c main_v1 : S1x128.Idx → Elt Ideal .f32)
      = shapeCast S1x128 (m ((c.tc : Thread nD τ).loc main_arg3)) shapeCasts_S128_S1x128 := by
  dsimp only [V, V0]
  simp only [hostOps0, List.flatten_cons, List.flatten_nil, List.append_nil]
  after_results
  rfl

/-- The features are the argument, untouched by the two reshapes. -/
private theorem region_x (c : Dev nD) :
    (V m c main_arg0 : S10000x128.Idx → Elt Ideal .f32) = m ((c.tc : Thread nD τ).loc main_arg0) := by
  dsimp only [V, V0]
  simp only [hostOps0, List.flatten_cons, List.flatten_nil, List.append_nil]
  after_results

/-- The weight is the argument, untouched by the two reshapes. -/
private theorem region_w (c : Dev nD) :
    (V m c main_arg2 : S128x128.Idx → Elt Ideal .f32) = m ((c.tc : Thread nD τ).loc main_arg2) := by
  dsimp only [V, V0]
  simp only [hostOps0, List.flatten_cons, List.flatten_nil, List.append_nil]
  after_results

/-! ## The output block after the body, at an index -/

/-- Leading index 1 of the output block holds the second half's stored value (the later store). -/
private theorem out5_hi (xa xb : Vec Ideal S1x200x10000 .f32) (x : Vec Ideal S10000x128 .f32) (w : Vec Ideal S128x128 .f32)
    (b1 : Vec Ideal S1x128 .f32) (p : Fin 200) (q : Fin 128) :
    out5 xa xb x w b1 (ix3 (1 : Fin 2) p q) = k0_pay3 x w b1 xb (ix3 (0 : Fin 1) p q) := by
  have e : rHi.emb (ix3 (0 : Fin 1) p q) = ix3 (1 : Fin 2) p q := by
    funext a; apply Fin.ext
    match a with
    | ⟨0, _⟩ => rfl
    | ⟨1, _⟩ => show 0 + 1 * p.val = p.val; omega
    | ⟨2, _⟩ => show 0 + 1 * q.val = q.val; omega
  unfold out5
  rw [← e]
  exact View.canon_cons_emb (Val := Elt Ideal) (e := .f32) rHi (k0_pay3 x w b1 xb) _ (ix3 (0 : Fin 1) p q)

/-- Leading index 0 holds the first half's: the later store does not reach it. -/
private theorem out5_lo (xa xb : Vec Ideal S1x200x10000 .f32) (x : Vec Ideal S10000x128 .f32) (w : Vec Ideal S128x128 .f32)
    (b1 : Vec Ideal S1x128 .f32) (p : Fin 200) (q : Fin 128) :
    out5 xa xb x w b1 (ix3 (0 : Fin 2) p q) = k0_pay2 x w b1 xa (ix3 (0 : Fin 1) p q) := by
  have e : rLo.emb (ix3 (0 : Fin 1) p q) = ix3 (0 : Fin 2) p q := by
    funext a; apply Fin.ext
    match a with
    | ⟨0, _⟩ => rfl
    | ⟨1, _⟩ => show 0 + 1 * p.val = p.val; omega
    | ⟨2, _⟩ => show 0 + 1 * q.val = q.val; omega
  have hn : ix3 (0 : Fin 2) p q ∉ rHi.set := fun hm => by
    have h0 : (1 : Nat) ≤ 0 := (Rect.mem_set_unit.mp hm 0).1
    omega
  unfold out5
  refine (View.canon_cons_of_not_mem (⟨rHi, k0_pay3 x w b1 xb⟩ : View.Piece (Elt Ideal) S2x200x128 .f32) _ hn).trans ?_
  rw [← e]
  exact View.canon_cons_emb (Val := Elt Ideal) (e := .f32) rLo (k0_pay2 x w b1 xa) [] (ix3 (0 : Fin 1) p q)

/-! ## The output array as one function of the arrays the region finds -/

/-- Entry (h, r, q): row r of half h of the adjacency against the features, then against column q of the weight,
    plus the bias at q. -/
private def gk (A : Vec Ideal S2x5000x10000 .f32) (x : Vec Ideal S10000x128 .f32) (w : Vec Ideal S128x128 .f32)
    (b1 : Vec Ideal S1x128 .f32) (h : Fin 2) (r : Fin 5000) (q : Fin 128) : EReal :=
  (∑ k : Fin 128, (∑ j : Fin 10000, A (ix3 h r j) * x (ix2 j k)) * w (ix2 k q)) + b1 (ix2 (0 : Fin 1) q)

/-- The whole 2 × 5000 × 128 array. -/
private def Gk (A : Vec Ideal S2x5000x10000 .f32) (x : Vec Ideal S10000x128 .f32) (w : Vec Ideal S128x128 .f32)
    (b1 : Vec Ideal S1x128 .f32) : Vec Ideal S2x5000x128 .f32 :=
  fun i => gk A x w b1 (i 0) (i 1) (i 2)

/-- The output block of a point whose two input blocks are rows T·200 … of the two halves of the adjacency is the
    same rows of the two halves of that function. -/
private theorem out5_apply (A : Vec Ideal S2x5000x10000 .f32) (x : Vec Ideal S10000x128 .f32) (w : Vec Ideal S128x128 .f32)
    (b1 : Vec Ideal S1x128 .f32) (xa xb : Vec Ideal S1x200x10000 .f32) (T : Nat)
    (hxa : ∀ (p : Fin 200) (j : Fin 10000) (r : Fin 5000), r.val = T * 200 + p.val →
      xa (ix3 (0 : Fin 1) p j) = A (ix3 (0 : Fin 2) r j))
    (hxb : ∀ (p : Fin 200) (j : Fin 10000) (r : Fin 5000), r.val = T * 200 + p.val →
      xb (ix3 (0 : Fin 1) p j) = A (ix3 (1 : Fin 2) r j))
    (h : Fin 2) (p : Fin 200) (q : Fin 128) (r : Fin 5000) (hr : r.val = T * 200 + p.val) :
    out5 xa xb x w b1 (ix3 h p q) = gk A x w b1 h r q := by
  have hh : h.val = 0 ∨ h.val = 1 := by omega
  rcases hh with h0 | h1
  · obtain rfl : h = 0 := Fin.ext h0
    refine (out5_lo xa xb x w b1 p q).trans ((pay2_apply x w b1 xa p q).trans ?_)
    unfold gk
    exact congrArg₂ (· + ·) (Finset.sum_congr rfl fun k _ => congrArg (· * w (ix2 k q))
      (Finset.sum_congr rfl fun j _ => congrArg (· * x (ix2 j k)) (hxa p j r hr))) rfl
  · obtain rfl : h = 1 := Fin.ext h1
    refine (out5_hi xa xb x w b1 p q).trans ((pay3_apply x w b1 xb p q).trans ?_)
    unfold gk
    exact congrArg₂ (· + ·) (Finset.sum_congr rfl fun k _ => congrArg (· * w (ix2 k q))
      (Finset.sum_congr rfl fun j _ => congrArg (· * x (ix2 j k)) (hxb p j r hr))) rfl

/-! ## The windows' blocks at a point -/

/-- The printed index maps, decided once over the grid: the two adjacency windows and the output window move along the
    rows with the point, the first adjacency window at half 0 and the second at half 1; the other windows stay. -/
private theorem idx_facts : ∀ t : Fin cfg0.N,
    win0_0.index t (0 : Fin 3) = 0 ∧ win0_0.index t (1 : Fin 3) = t.val ∧ win0_0.index t (2 : Fin 3) = 0
    ∧ win0_1.index t (0 : Fin 3) = 1 ∧ win0_1.index t (1 : Fin 3) = t.val ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = t.val ∧ win0_5.index t (2 : Fin 3) = 0 :=
  (by decide +kernel : ∀ t : Fin grid0.N, _)

/-- The first adjacency window's block at point t is rows 200·t … of half 0. -/
private theorem iblk0_apply (c : Dev nD) (t : Fin cfg0.N) (p : Fin 200) (j : Fin 10000) (r : Fin 5000)
    (hr : r.val = t.val * 200 + p.val) :
    (iblk m c 0 t : Vec Ideal S1x200x10000 .f32) (ix3 (0 : Fin 1) p j)
      = (V m c main_v0 : S2x5000x10000.Idx → Elt Ideal .f32) (ix3 (0 : Fin 2) r j) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 1 + 1 * 0 = 0; rw [e0]
  | ⟨1, _⟩ => show win0_0.index t (1 : Fin 3) * 200 + 1 * p.val = r.val; rw [e1, hr]; omega
  | ⟨2, _⟩ => show win0_0.index t (2 : Fin 3) * 10000 + 1 * j.val = j.val; rw [e2]; omega

/-- The second adjacency window's block at point t is the same rows of half 1. -/
private theorem iblk1_apply (c : Dev nD) (t : Fin cfg0.N) (p : Fin 200) (j : Fin 10000) (r : Fin 5000)
    (hr : r.val = t.val * 200 + p.val) :
    (iblk m c 1 t : Vec Ideal S1x200x10000 .f32) (ix3 (0 : Fin 1) p j)
      = (V m c main_v0 : S2x5000x10000.Idx → Elt Ideal .f32) (ix3 (1 : Fin 2) r j) := by
  obtain ⟨-, -, -, e0, e1, e2, -⟩ := idx_facts t
  unfold iblk
  rw [View.read_apply]
  show V m c main_v0 _ = V m c main_v0 _
  congr 1
  funext a
  apply Fin.ext
  match a with
  | ⟨0, _⟩ => show win0_1.index t (0 : Fin 3) * 1 + 1 * 0 = 1; rw [e0]
  | ⟨1, _⟩ => show win0_1.index t (1 : Fin 3) * 200 + 1 * p.val = r.val; rw [e1, hr]; omega
  | ⟨2, _⟩ => show win0_1.index t (2 : Fin 3) * 10000 + 1 * j.val = j.val; rw [e2]; omega

/-- The features' window holds the whole array at every point. -/
private theorem iblk2_eq (c : Dev nD) (t : Fin cfg0.N) :
    (iblk m c 2 t : Vec Ideal S10000x128 .f32) = V m c main_arg0 := by
  obtain ⟨-, -, -, -, -, -, e0, e1, -⟩ := idx_facts t
  funext y
  unfold iblk
  rw [View.read_apply]
  show V m c main_arg0 _ = V m c main_arg0 y
  congr 1
  funext a
  apply Fin.ext
  match a with
  | ⟨0, _⟩ => show win0_2.index t (0 : Fin 2) * 10000 + 1 * (y 0).val = (y 0).val; rw [e0]; omega
  | ⟨1, _⟩ => show win0_2.index t (1 : Fin 2) * 128 + 1 * (y 1).val = (y 1).val; rw [e1]; omega

/-- So does the weight's. -/
private theorem iblk3_eq (c : Dev nD) (t : Fin cfg0.N) :
    (iblk m c 3 t : Vec Ideal S128x128 .f32) = V m c main_arg2 := by
  obtain ⟨-, -, -, -, -, -, -, -, e0, e1, -⟩ := idx_facts t
  funext y
  unfold iblk
  rw [View.read_apply]
  show V m c main_arg2 _ = V m c main_arg2 y
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- And the bias row's. -/
private theorem iblk4_eq (c : Dev nD) (t : Fin cfg0.N) :
    (iblk m c 4 t : Vec Ideal S1x128 .f32) = V m c main_v1 := by
  obtain ⟨-, -, -, -, -, -, -, -, -, -, e0, e1, -⟩ := idx_facts t
  funext y
  unfold iblk
  rw [View.read_apply]
  show V m c main_v1 _ = V m c main_v1 y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-! ## What a point writes back, and the array after the run -/

/-- The output block at point t, at (h, p, q), is the function's entry (h, 200·t + p, q). -/
private theorem block5_apply (c : Dev nD) (t : Fin cfg0.N) (h : Fin 2) (p : Fin 200) (q : Fin 128) (r : Fin 5000)
    (hr : r.val = t.val * 200 + p.val) :
    out5 (iblk m c 0 t) (iblk m c 1 t) (V m c main_arg0) (V m c main_arg2) (V m c main_v1) (ix3 h p q)
      = Gk (V m c main_v0) (V m c main_arg0) (V m c main_arg2) (V m c main_v1) (ix3 h r q) :=
  out5_apply _ _ _ _ _ _ t.val (fun p j r hr => iblk0_apply m c t p j r hr) (fun p j r hr => iblk1_apply m c t p j r hr)
    h p q r hr

/-- What point t writes back is its block of that one function of the arrays the region finds. -/
private theorem flushed5_eq (c : Dev nD) (t : Fin cfg0.N) :
    (dats m 0 c).flushed 5 t
      = ((cfg0.win 5).blk t).view.read (Elt Ideal)
          (Gk (V m c main_v0) (V m c main_arg0) (V m c main_arg2) (V m c main_v1)) := by
  show (cfg0.win 5).cut (grid0.coords t) ((dats m 0 c).after 5 t) = _
  rw [after5, iblk2_eq, iblk3_eq, iblk4_eq]
  obtain ⟨-, -, -, -, -, -, -, -, -, -, -, -, e0, e1, e2⟩ := idx_facts t
  have ht : t.val < 25 := Nat.lt_of_lt_of_eq t.isLt N_0
  funext y
  have y0 : (y 0).val < 2 := (y 0).isLt
  have y1 : (y 1).val < 200 := (y 1).isLt
  have y2 : (y 2).val < 128 := (y 2).isLt
  rw [View.read_apply]
  show out5 _ _ _ _ _ ((cfg0.win 5).xinj (grid0.coords t) y) = Gk _ _ _ _ (((cfg0.win 5).blk t).view.emb y)
  refine (congrArg (out5 _ _ _ _ _)
    (eq_ix3 (n0 := 2) (n1 := 200) (n2 := 128) ((cfg0.win 5).xinj (grid0.coords t) y))).trans ?_
  refine (block5_apply m c t _ _ _ ⟨t.val * 200 + (y 1).val, by omega⟩ rfl).trans ?_
  refine congrArg (Gk _ _ _ _) ?_
  funext a
  apply Fin.ext
  match a with
  | ⟨0, _⟩ => show (y 0).val = win0_5.index t (0 : Fin 3) * 2 + 1 * (y 0).val; rw [e0]; omega
  | ⟨1, _⟩ => show t.val * 200 + (y 1).val = win0_5.index t (1 : Fin 3) * 200 + 1 * (y 1).val; rw [e1]; omega
  | ⟨2, _⟩ => show (y 2).val = win0_5.index t (2 : Fin 3) * 128 + 1 * (y 2).val; rw [e2]; omega

/-- An index of the output array is in point t's block iff each coordinate is in the block's range on its axis. -/
private theorem mem_blk5 (t : Fin cfg0.N) (i : S2x5000x128.Idx) :
    i ∈ ((cfg0.win 5).blk t).view.set ↔
      ∀ a : Fin 3, win0_5.index t a * S2x200x128.size a ≤ (i a).val
        ∧ (i a).val < win0_5.index t a * S2x200x128.size a + S2x200x128.size a := by
  show i ∈ ((View.whole main_v2).slice (win0_5.rect t)).set ↔ _
  rw [View.set_slice_whole, Rect.mem_set_unit]
  exact Iff.rfl

/-- Every entry (h, r, q) of the output array is written back by the point r / 200. -/
private theorem cover5 (i : S2x5000x128.Idx) :
    ∃ t : Fin cfg0.N, (cfg0.win 5).flush t = true ∧ i ∈ ((cfg0.win 5).blk t).view.set := by
  have h0 : (i 0).val < 2 := (i 0).isLt
  have h1 : (i 1).val < 5000 := (i 1).isLt
  have h2 : (i 2).val < 128 := (i 2).isLt
  obtain ⟨t, ht⟩ : ∃ t : Fin cfg0.N, t.val = (i 1).val / 200 :=
    ⟨⟨(i 1).val / 200, Nat.lt_of_lt_of_eq (by omega : (i 1).val / 200 < 25) N_0.symm⟩, rfl⟩
  obtain ⟨-, -, -, -, -, -, -, -, -, -, -, -, e0, e1, e2⟩ := idx_facts t
  refine ⟨t, flush0_5 t, ?_⟩
  rw [mem_blk5]
  intro a
  match a with
  | ⟨0, _⟩ =>
    show win0_5.index t (0 : Fin 3) * 2 ≤ (i 0).val ∧ (i 0).val < win0_5.index t (0 : Fin 3) * 2 + 2
    rw [e0]; omega
  | ⟨1, _⟩ =>
    show win0_5.index t (1 : Fin 3) * 200 ≤ (i 1).val ∧ (i 1).val < win0_5.index t (1 : Fin 3) * 200 + 200
    rw [e1, ht]; omega
  | ⟨2, _⟩ =>
    show win0_5.index t (2 : Fin 3) * 128 ≤ (i 2).val ∧ (i 2).val < win0_5.index t (2 : Fin 3) * 128 + 128
    rw [e2]; omega

/-- So the output array ends holding that function. -/
private theorem final5 (c : Dev nD) :
    outArr (F := Ideal) m c = Gk (V m c main_v0) (V m c main_arg0) (V m c main_arg2) (V m c main_v1) := by
  unfold outArr
  exact (dats m 0 c).arrAt_eq_of_cover 5 _ (fun t _ => flushed5_eq m c t) cover5

/-! ## The reshape to 10000 × 128 -/

/-- The result buffer's contents (the output array reshaped to 10000 × 128) are the specification of the arguments. -/
theorem result_eq (c : Dev nD) :
    shapeCast S10000x128 (outArr (F := Ideal) m c) shapeCasts_S2x5000x128_S10000x128
      = Cert.GcnSpec.G (m ((c.tc : Thread nD τ).loc main_arg0)) (m ((c.tc : Thread nD τ).loc main_arg1))
          (m ((c.tc : Thread nD τ).loc main_arg2)) (m ((c.tc : Thread nD τ).loc main_arg3)) := by
  rw [final5, region_adj, region_bias, region_x, region_w]
  funext i
  obtain ⟨r, q, rfl⟩ : ∃ (r : Fin 10000) (q : Fin 128), i = ix2 r q := ⟨i 0, i 1, eq_ix2 i⟩
  have hr : r.val < 10000 := r.isLt
  rw [Cert.GcnSpec.G_ix2]
  unfold Cert.GcnSpec.g
  refine (shapeCast_apply _ _ (ix2 r q)
    (ix3 (⟨r.val / 5000, by omega⟩ : Fin 2) (⟨r.val % 5000, by omega⟩ : Fin 5000) q) ?_).trans ?_
  · rw [Shape.rowMajor_val_three, Shape.rowMajor_val_two]
    show (r.val / 5000 * 5000 + r.val % 5000) * 128 + q.val = r.val * 128 + q.val
    omega
  · show gk _ _ _ _ _ _ _ = _
    unfold gk
    refine congrArg₂ (· + ·) (Finset.sum_congr rfl fun k _ => congrArg (· * _)
      (Finset.sum_congr rfl fun j _ => congrArg (· * _) ?_)) ?_
    · refine shapeCast_apply _ _ _ (ix2 r j) ?_
      rw [Shape.rowMajor_val_three, Shape.rowMajor_val_two]
      show r.val * 10000 + j.val = (r.val / 5000 * 5000 + r.val % 5000) * 10000 + j.val
      omega
    · exact shapeCast_a_1a_apply _ _ 0 q

end Cert.KernelIdeal.Hand

end
-- ==== Proof.RefValue.lean ====
/-
  The reference at the ideal values is the specification: entry (r, c) of  (adj · x) · w + b  read one operation at a
  time — the sum over k of (the sum over j of adj[r, j] · x[j, k]) times w[k, c], plus the bias at c (its two broadcasts
  read the bias at the column).
-/
import proofs.«158242_g82179904241989_cont_9to1_m_260_6_alg».proof.Proof.Gen.ReferenceIdeal.Read
import proofs.«158242_g82179904241989_cont_9to1_m_260_6_alg».proof.Proof.Spec

open scoped BigOperators

noncomputable section

namespace Cert.ReferenceIdeal.RefValue

open Cert.ReferenceIdeal Cert.ReferenceIdeal.Gen Cert.ReferenceIdeal.Read Idealize.ShloMosaic Idealize.ShloMosaic.ValueIdx

/-- Row r of the first product, contracted coordinate k: the left operand of the second product at (r, k). -/
theorem lidx1 (r : Fin 10000) (c : Fin 128) (k : Fin 128) : lidx_main_v1 (ix2 r c) k = ix2 r k :=
  funext fun a => Fin.ext (by match a with | ⟨0, _⟩ => rfl | ⟨1, _⟩ => rfl)
theorem ridx1 (r : Fin 10000) (c : Fin 128) (k : Fin 128) : ridx_main_v1 (ix2 r c) k = ix2 k c :=
  funext fun a => Fin.ext (by match a with | ⟨0, _⟩ => rfl | ⟨1, _⟩ => rfl)
theorem lidx0 (r : Fin 10000) (k : Fin 128) (j : Fin 10000) : lidx_main_v0 (ix2 r k) j = ix2 r j :=
  funext fun a => Fin.ext (by match a with | ⟨0, _⟩ => rfl | ⟨1, _⟩ => rfl)
theorem ridx0 (r : Fin 10000) (k : Fin 128) (j : Fin 10000) : ridx_main_v0 (ix2 r k) j = ix2 j k :=
  funext fun a => Fin.ext (by match a with | ⟨0, _⟩ => rfl | ⟨1, _⟩ => rfl)
/-- The bias broadcast to a row and then to every row is read at the column. -/
theorem bidx (r : Fin 10000) (c : Fin 128) : idx_main_v2 (idx_main_v3 (ix2 r c)) = ix1 c :=
  funext fun a => Fin.ext (by match a with | ⟨0, _⟩ => rfl)

/-- The reference's result, as a function of the four arguments, is the specification. -/
theorem ref_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) :
    val_main_v4 (F := Ideal) x0 x1 x2 x3 = Cert.GcnSpec.G x0 x1 x2 x3 := by
  funext i
  obtain ⟨r, c, rfl⟩ : ∃ (r : Fin 10000) (c : Fin 128), i = ix2 r c := ⟨i 0, i 1, eq_ix2 i⟩
  rw [Cert.GcnSpec.G_ix2, val_main_v4_apply, val_main_v1_apply, val_main_v3_apply, val_main_v2_apply, bidx, Ideal.addf_def]
  unfold Cert.GcnSpec.g
  congr 1
  refine Finset.sum_congr rfl fun k _ => ?_
  rw [lidx1, ridx1, val_main_v0_apply]
  congr 1
  refine Finset.sum_congr rfl fun j _ => ?_
  rw [lidx0, ridx0]

end Cert.ReferenceIdeal.RefValue

end
-- ==== Proof.lean ====
/-
  The certificate of the graph-convolution kernel  out = (adj · x) · w + b  (adj 10000 × 10000, x 10000 × 128,
  w 128 × 128, b 128) against jnp's  (adj @ x) @ w + b.

  The kernel walks 25 grid points; at point t it multiplies rows 200t … 200t+199 of EACH half of the adjacency (viewed as
  2 × 5000 × 10000, one input window per half, so two windows read one array) by x, the product by w, adds the bias row,
  and stores the two 200 × 128 results at leading index 0 and 1 of its 2 × 200 × 128 output block; @main reshapes the
  2 × 5000 × 128 output to 10000 × 128.  At the ideal values both programs compute, at entry (r, c),
  (Σ_k (Σ_j adj[r, j] · x[j, k]) · w[k, c]) + b[c]  with the same grouping of the sums, so no law of the extended reals
  beyond reading both sides at an entry is needed, and the precondition is never opened.

  Frames: each program's run (the kernel's launch with the adjacency's share dealt in halves to its two windows; the
  reference's host run) ends with the arguments unchanged.  The idealization rewrote nothing (preserves is trivial).
-/
import proofs.«158242_g82179904241989_cont_9to1_m_260_6_alg».proof.Defs
import proofs.«158242_g82179904241989_cont_9to1_m_260_6_alg».proof.Proof.Gen.Kernel
import proofs.«158242_g82179904241989_cont_9to1_m_260_6_alg».proof.Proof.Gen.KernelIdeal
import proofs.«158242_g82179904241989_cont_9to1_m_260_6_alg».proof.Proof.Gen.ReferenceIdeal
import proofs.«158242_g82179904241989_cont_9to1_m_260_6_alg».proof.Proof.Gen.ReferenceIdeal.Run
import proofs.«158242_g82179904241989_cont_9to1_m_260_6_alg».proof.Proof.Gen.ReferenceIdeal.Read
import proofs.«158242_g82179904241989_cont_9to1_m_260_6_alg».proof.Proof.Gen.Pre_finite_inputs
import proofs.«158242_g82179904241989_cont_9to1_m_260_6_alg».proof.Proof.KLaunch
import proofs.«158242_g82179904241989_cont_9to1_m_260_6_alg».proof.Proof.ILaunch
import proofs.«158242_g82179904241989_cont_9to1_m_260_6_alg».proof.Proof.IValue
import proofs.«158242_g82179904241989_cont_9to1_m_260_6_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its four arguments as they were. -/
theorem frame_kernel : Cert.frame_Kernel := fun m ρ _ =>
  (θ_run Cert.Kernel.defs _ _).mono (fun _ h c => (h c).2) (Cert.Kernel.Hand.run_main (F := Bits) m ρ)

/-- So does the idealized kernel. -/
theorem frame_kernelIdeal : Cert.frame_KernelIdeal := fun m ρ _ =>
  (θ_run Cert.KernelIdeal.defs _ _).mono (fun _ h c => (h c).2) (Cert.KernelIdeal.Hand.run_main (F := Ideal) m ρ)

/-- The reference's host run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the result at the specification of the (agreeing) arguments. -/
theorem algebraic : Cert.algebraic_KernelIdeal_ReferenceIdeal := by
  intro m ρ m' ρ' _ hagree
  refine ⟨fun c => Cert.GcnSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.result_eq m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v4_eq, Cert.ReferenceIdeal.RefValue.ref_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
